-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x2048x4096 .f32) (main_arg1 : FVec F S11008x4096 .f32) (main_arg2 : FVec F S11008x4096 .f32) (main_arg3 : FVec F S4096x11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S4096x11008 : Shape := ⟨2, ![4096, 11008]⟩
abbrev S8192x4096 : Shape := ⟨2, ![8192, 4096]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S8192x4096, .f32⟩
  | .hbm, ⟨5, _⟩ => ⟨S8192x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S8192x4096, .f32⟩
  | .hbm, ⟨10, _⟩ => ⟨S4x2048x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 43], ![false, false]⟩

def k0_cond2 (i : grid0.Coords) : BitVec 1 :=
  let arg1 : BitVec 32 := BitVec.ofNat 32 (i 1).val
  let c42_i32 : BitVec 32 := 42#32
  let v23 : BitVec 1 := Scalar.cmpi .eq arg1 c42_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x2048x4096_S8192x4096 : S4x2048x4096.ShapeCasts S8192x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S4096x11008 : Shape := ⟨2, ![4096, 11008]⟩
abbrev S4x2048x11008 : Shape := ⟨3, ![4, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4x2048x11008, .f32⟩
  | .hbm, ⟨5, _⟩ => ⟨S4x2048x11008, .f32⟩
  | .hbm, ⟨6, _⟩ => ⟨S4x2048x11008, .f32⟩
  | .hbm, ⟨7, _⟩ => ⟨S4x2048x11008, .f32⟩
  | .hbm, ⟨8, _⟩ => ⟨S_, .f32⟩
  | .hbm, ⟨9, _⟩ => ⟨S4x2048x11008, .f32⟩
  | .hbm, ⟨10, _⟩ => ⟨S4x2048x11008, .f32⟩
  | .hbm, ⟨11, _⟩ => ⟨S_, .f32⟩
  | .hbm, ⟨12, _⟩ => ⟨S4x2048x11008, .f32⟩
  | .hbm, ⟨13, _⟩ => ⟨S4x2048x11008, .f32⟩
  | .hbm, ⟨14, _⟩ => ⟨S4x2048x11008, .f32⟩
  | .hbm, ⟨15, _⟩ => ⟨S4x2048x11008, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []
  dot_S4x2048x11008_S4096x11008_S4x2048x4096_2_1_01_0_n_n_wf : DotDims.WF S4x2048x11008 S4096x11008 S4x2048x4096 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf
def dot_S4x2048x11008_S4096x11008_S4x2048x4096_2_1_01_0_n_n : DotDims S4x2048x11008 S4096x11008 S4x2048x4096 where
  lhsContracting := [2]
  rhsContracting := [1]
  lhsNonContracting := [0, 1]
  rhsNonContracting := [0]
  lhsBatch := []
  rhsBatch := []
  wf := dot_S4x2048x11008_S4096x11008_S4x2048x4096_2_1_01_0_n_n_wf

class Facts : Prop extends Facts₀ where

variable [Facts]
-- ==== Proof.Visit.lean ====
/-
  What one visit of the kernel body leaves behind, case by case, as a value.

  The body keeps a running block `acc` (256 × 4096) in a scratch buffer across the 43 visits of one row block.
  Every visit replaces it by `acc + (hidden block) · (third-matrix block)ᵀ` of the four input blocks it is
  handed: that is the body's one arithmetic term, `k0_pay2 x0 x1 x2 x3 acc`. At the first visit of a row block
  `acc` is first set to the zero block `k0_pay1`; at the last visit the new `acc` is also copied to the output
  block. So, in the three cases the frame run distinguishes:
    first visit   : the scratch ends at `k0_pay2 x0 x1 x2 x3 k0_pay1`;
    middle visit  : the scratch ends at `k0_pay2 x0 x1 x2 x3 xs`, `xs` what the visit before left;
    last visit    : the same, and the output block holds the same value.
  Each statement reads the stores the run found back as one block: a store that covers the whole buffer
  decides its contents, and a load after such a store reads the stored value.
-/
import proofs.«124684_j39092792328541_1_alg».proof.Proof.Gen.KernelIdeal.Frame
import Idealize.ShloMosaic.Lib.Pipeline.Value
import Idealize.ShloMosaic.Lib.Tactic

noncomputable section

namespace Cert.KernelIdeal.Visit

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S256x4096 .bf16) (h2 : a2.IsWhole) (a3 : Memref sig .tc .vmem S256x4096 .bf16) (h3 : a3.IsWhole)
  (a4 : Memref sig .tc .vmem S256x4096 .bf16) (h4 : a4.IsWhole) (a5 : Memref sig .tc .vmem S4096x256 .bf16) (h5 : a5.IsWhole)
  (a6 : Memref sig .tc .vmem S256x4096 .f32) (h6 : a6.IsWhole) (a7 : Memref sig .tc .vmem S256x4096 .f32) (h7 : a7.IsWhole)
  (x0 x1 x2 : Vec F S256x4096 .bf16) (x3 : Vec F S4096x256 .bf16)

/-- A middle visit: the scratch, found at `xs`, ends at the body's term over `xs`. -/
theorem scratch_mid (hc0 : ¬cond0_0 i) (hc1 : ¬cond0_1 i) (xs : Vec F S256x4096 .f32) :
    sout0_B_0 c i a2 h2 a3 h3 a4 h4 a5 h5 a6 h6 a7 h7 hc0 hc1 x0 x1 x2 x3 xs = k0_pay2 x0 x1 x2 x3 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz]
  simp only [View.readAt_eq_ld, h2.read_unread, h3.read_unread, h4.read_unread, h5.read_unread, h7.read_unread,
    View.readCov_unit_zero (S := S256x4096) _ hz, View.ld_unit_zero (S := S256x4096) hz, View.ld_unit_zero (S := S4096x256) hz]

/-- A first visit: the scratch is set to the zero block, read back, and ends at the body's term over it. -/
theorem scratch_first (hc0 : cond0_0 i) (hc1 : ¬cond0_1 i) :
    sout0_A_0 c i a2 h2 a3 h3 a4 h4 a5 h5 a6 h6 a7 h7 hc0 hc1 x0 x1 x2 x3 = k0_pay2 x0 x1 x2 x3 k0_pay1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x4096) hz]
  simp only [View.readAt_eq_ld, h2.read_unread, h3.read_unread, h4.read_unread, h5.read_unread, h7.read_unread,
    View.readCov_unit_zero (S := S256x4096) _ hz, View.ld_unit_zero (S := S256x4096) hz, View.ld_unit_zero (S := S4096x256) hz]

/-- A last visit: the scratch ends at the body's term over what the visit before left, -/
theorem scratch_last (hc0 : ¬cond0_0 i) (hc1 : cond0_1 i) (xs : Vec F S256x4096 .f32) :
    sout0_C_0 c i a2 h2 a3 h3 a4 h4 a5 h5 a6 h6 a7 h7 hc0 hc1 x0 x1 x2 x3 xs = k0_pay2 x0 x1 x2 x3 xs := by
  unfold sout0_C_0
  rw [View.read_writes_eq_canon _ _ _ (scover0_C_0 c i a2 h2 a3 h3 a4 h4 a5 h5 a6 h6 a7 h7 hc0 hc1 x0 x1 x2 x3 xs)]
  unfold kernelRun0_C
  dsimp only
  sl_unfold_words
  rw [View.canon_unit_zero hz]
  simp only [View.readAt_eq_ld, h2.read_unread, h3.read_unread, h4.read_unread, h5.read_unread, h7.read_unread,
    View.readCov_unit_zero (S := S256x4096) _ hz, View.ld_unit_zero (S := S256x4096) hz, View.ld_unit_zero (S := S4096x256) hz]

/-- and the output block is a copy of it. -/
theorem out_last (hc0 : ¬cond0_0 i) (hc1 : cond0_1 i) (xs : Vec F S256x4096 .f32) :
    out0_C_4 c i a2 h2 a3 h3 a4 h4 a5 h5 a6 h6 a7 h7 hc0 hc1 x0 x1 x2 x3 xs = k0_pay2 x0 x1 x2 x3 xs := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero hz]
  simp only [View.readAt_eq_ld, h2.read_unread, h3.read_unread, h4.read_unread, h5.read_unread, h7.read_unread,
    View.readCov_unit_zero (S := S256x4096) _ hz, View.ld_unit_zero (S := S256x4096) hz, View.ld_unit_zero (S := S4096x256) hz]

end Cert.KernelIdeal.Visit

end
-- ==== Proof.Acc.lean ====
/-
  The running block across the visits of the grid, in closed form.

  The grid's 1376 visits are numbered row block by row block: visit `n` works on row block `n / 43` and hidden-unit
  group `n % 43`. `acc n` is the block the scratch holds after visit `n`: the body's term over the four input
  blocks of the visit and, underneath, the zero block at the first visit of a row block (`n % 43 = 0`) and
  `acc (n − 1)` otherwise. By induction on the visit the frame run's own bookkeeping (`outsAt0`, defined case by
  case over the stores the run found) is this recursion: its scratch component at every visit, and its output
  component at the last visit of each row block (`n % 43 = 42`), the only visits whose output block is written back.
-/
import proofs.«124684_j39092792328541_1_alg».proof.Proof.Visit

noncomputable section

namespace Cert.KernelIdeal.Visit

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The four input blocks of a visit, at their literal types: the activations' row block, the two projections'
    groups of rows, the third matrix's group of columns. -/
abbrev xblk (c : Dev nD) (t : Fin cfg0.N) : Vec F S256x4096 .bf16 := iblk m c 0 t
abbrev gblk (c : Dev nD) (t : Fin cfg0.N) : Vec F S256x4096 .bf16 := iblk m c 1 t
abbrev ublk (c : Dev nD) (t : Fin cfg0.N) : Vec F S256x4096 .bf16 := iblk m c 2 t
abbrev dblk (c : Dev nD) (t : Fin cfg0.N) : Vec F S4096x256 .bf16 := iblk m c 3 t

/-- The running block after visit `n`. -/
def acc (c : Dev nD) : (n : ℕ) → n < cfg0.N → Vec F S256x4096 .f32
  | 0, h => k0_pay2 (xblk m c ⟨0, h⟩) (gblk m c ⟨0, h⟩) (ublk m c ⟨0, h⟩) (dblk m c ⟨0, h⟩) k0_pay1
  | n + 1, h => k0_pay2 (xblk m c ⟨n + 1, h⟩) (gblk m c ⟨n + 1, h⟩) (ublk m c ⟨n + 1, h⟩) (dblk m c ⟨n + 1, h⟩)
      (if (n + 1) % 43 = 0 then k0_pay1 else acc c n (Nat.lt_of_succ_lt h))

theorem acc_zero (c : Dev nD) (h : 0 < cfg0.N) :
    acc m c 0 h = k0_pay2 (xblk m c ⟨0, h⟩) (gblk m c ⟨0, h⟩) (ublk m c ⟨0, h⟩) (dblk m c ⟨0, h⟩) k0_pay1 := rfl

theorem acc_succ (c : Dev nD) (n : ℕ) (h : n + 1 < cfg0.N) :
    acc m c (n + 1) h = k0_pay2 (xblk m c ⟨n + 1, h⟩) (gblk m c ⟨n + 1, h⟩) (ublk m c ⟨n + 1, h⟩) (dblk m c ⟨n + 1, h⟩)
      (if (n + 1) % 43 = 0 then k0_pay1 else acc m c n (Nat.lt_of_succ_lt h)) := rfl

/-- The scratch after every visit is the running block. -/
theorem scratch_eq (c : Dev nD) : ∀ (n : ℕ) (h : n < cfg0.N), (outsAt0 m c n h).2 = acc m c n h
  | 0, h => by
    rw [outsAt0_A m c ⟨0, h⟩ (Nat.zero_mod _) (by dsimp only; omega)]
    dsimp only
    rw [acc_zero]
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) scM0_0 (Memref.isWhole_whole _)
      (xblk m c ⟨0, h⟩) (gblk m c ⟨0, h⟩) (ublk m c ⟨0, h⟩) (dblk m c ⟨0, h⟩) _ _
  | n + 1, h => by
    by_cases h0 : (n + 1) % 43 = 0
    · have h1 : ¬(n + 1) % 43 = 42 := by omega
      rw [outsAt0_A m c ⟨n + 1, h⟩ h0 h1]
      dsimp only
      rw [acc_succ, if_pos h0]
      exact scratch_first c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0
        (Memref.isWhole_whole _) (xblk m c ⟨n + 1, h⟩) (gblk m c ⟨n + 1, h⟩) (ublk m c ⟨n + 1, h⟩) (dblk m c ⟨n + 1, h⟩) _ _
    · by_cases h1 : (n + 1) % 43 = 42
      · rw [outsAt0_C m c ⟨n + 1, h⟩ h0 h1]
        dsimp only
        rw [acc_succ, if_neg h0, ← scratch_eq c n (Nat.lt_of_succ_lt h)]
        exact scratch_last c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0
          (Memref.isWhole_whole _) (xblk m c ⟨n + 1, h⟩) (gblk m c ⟨n + 1, h⟩) (ublk m c ⟨n + 1, h⟩) (dblk m c ⟨n + 1, h⟩) _ _
          (outsAt0 m c n (Nat.lt_of_succ_lt h)).2
      · rw [outsAt0_B m c ⟨n + 1, h⟩ h0 h1]
        dsimp only
        rw [acc_succ, if_neg h0, ← scratch_eq c n (Nat.lt_of_succ_lt h)]
        exact scratch_mid c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0
          (Memref.isWhole_whole _) (xblk m c ⟨n + 1, h⟩) (gblk m c ⟨n + 1, h⟩) (ublk m c ⟨n + 1, h⟩) (dblk m c ⟨n + 1, h⟩) _ _
          (outsAt0 m c n (Nat.lt_of_succ_lt h)).2

/-- At the last visit of a row block the output block is the running block too. -/
theorem output_eq (c : Dev nD) (t : Fin cfg0.N) (h1 : t.val % 43 = 42) :
    (outsAt0 m c t.val t.isLt).1 = acc m c t.val t.isLt := by
  have h0 : ¬t.val % 43 = 0 := by omega
  rw [outsAt0_C m c t h0 h1]
  dsimp only
  obtain ⟨n, h⟩ := t
  cases n with
  | zero => exact absurd (Nat.zero_mod _) h0
  | succ n =>
    rw [acc_succ, if_neg h0, ← scratch_eq m c n (Nat.lt_of_succ_lt h)]
    exact out_last c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0
      (Memref.isWhole_whole _) (xblk m c ⟨n + 1, h⟩) (gblk m c ⟨n + 1, h⟩) (ublk m c ⟨n + 1, h⟩) (dblk m c ⟨n + 1, h⟩) _ _
      (outsAt0 m c n (Nat.lt_of_succ_lt h)).2

end Cert.KernelIdeal.Visit

end
-- ==== Proof.Blocks.lean ====
/-
  The four input blocks of a visit, read entry by entry off the arrays the region finds.

  Visit `t` (row block `t / 43`, hidden-unit group `t % 43`) is handed
    rows `256 (t / 43) + p` of the activations (as a 8192 × 4096 array),
    rows `256 (t % 43) + j` of each projection, and
    columns `256 (t % 43) + j` of the third matrix:
  a block's entry is the array's entry at block index × block size + the entry's own coordinate, and the block
  indices are decided once over the grid. On the extended reals the arrays the region finds are the arguments
  themselves: a change of float format is the identity, and the 8192 × 4096 activations are the 4 × 2048 × 4096
  ones with rows (b, s) numbered `2048 b + s`.
-/
import proofs.«124684_j39092792328541_1_alg».proof.Proof.Acc
import Idealize.ShloMosaic.Lib.StableHlo.Run
import Idealize.ShloMosaic.Lib.ValueIdx
import Idealize.ShloMosaic.Lib.Pipeline.Value

noncomputable section

namespace Cert.KernelIdeal.Visit

open Idealize.ShloMosaic Idealize.ShloMosaic.TcCoe Idealize.SL.Sem Idealize.ShloMosaic.ValueIdx
open Cert.KernelIdeal Cert.KernelIdeal.Gen

/-- The grid's visits number 1376. -/
theorem lt_N {n : ℕ} (h : n < cfg0.N) : n < 1376 := lt_of_lt_of_eq h N_0

/-- Row `p` of row block `n / 43`, among the 8192 rows. -/
def rowOf (n : ℕ) (hn : n < cfg0.N) (p : Fin 256) : Fin 8192 := ⟨256 * (n / 43) + p.val, by have := lt_N hn; have := p.isLt; omega⟩

/-- Hidden unit `j` of group `n % 43`, among the 11008. -/
def unitOf (n : ℕ) (j : Fin 256) : Fin 11008 := ⟨256 * (n % 43) + j.val, by have := Nat.mod_lt n (show 43 > 0 by decide); have := j.isLt; omega⟩

/-- The block indices of the five windows at every visit, decided over the grid. -/
theorem idx_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = 0 :=
  (by decide +kernel : ∀ t : Fin grid0.N, _)

section Blocks

variable {F : FTy → Type} [FloatOps F]
variable (m : (ℓ : Loc nD τ sig) → Buf (Elt F) ℓ)

/-- The activations' row block. -/
theorem xblk_apply (c : Dev nD) (t : Fin cfg0.N) (p : Fin 256) (h : Fin 4096) :
    xblk m c t (ix2 p h) = (V m c main_v1 : S8192x4096.Idx → Elt F .bf16) (ix2 (rowOf t.val t.isLt p) h) := by
  unfold xblk iblk
  rw [View.read_apply]
  show V m c main_v1 _ = V m c main_v1 _
  congr 1
  funext a
  apply Fin.ext
  obtain ⟨e0, e1, -⟩ := idx_facts t
  match a with
  | ⟨0, _⟩ => show win0_0.index t (0 : Fin 2) * 256 + 1 * p.val = 256 * (t.val / 43) + p.val; rw [e0]; omega
  | ⟨1, _⟩ => show win0_0.index t (1 : Fin 2) * 4096 + 1 * h.val = h.val; rw [e1]; omega

/-- The gate projection's group of rows. -/
theorem gblk_apply (c : Dev nD) (t : Fin cfg0.N) (j : Fin 256) (h : Fin 4096) :
    gblk m c t (ix2 j h) = (V m c main_v2 : S11008x4096.Idx → Elt F .bf16) (ix2 (unitOf t.val j) h) := by
  unfold gblk iblk
  rw [View.read_apply]
  show V m c main_v2 _ = V m c main_v2 _
  congr 1
  funext a
  apply Fin.ext
  obtain ⟨-, -, e0, e1, -⟩ := idx_facts t
  match a with
  | ⟨0, _⟩ => show win0_1.index t (0 : Fin 2) * 256 + 1 * j.val = 256 * (t.val % 43) + j.val; rw [e0]; omega
  | ⟨1, _⟩ => show win0_1.index t (1 : Fin 2) * 4096 + 1 * h.val = h.val; rw [e1]; omega

/-- The other projection's group of rows. -/
theorem ublk_apply (c : Dev nD) (t : Fin cfg0.N) (j : Fin 256) (h : Fin 4096) :
    ublk m c t (ix2 j h) = (V m c main_v3 : S11008x4096.Idx → Elt F .bf16) (ix2 (unitOf t.val j) h) := by
  unfold ublk iblk
  rw [View.read_apply]
  show V m c main_v3 _ = V m c main_v3 _
  congr 1
  funext a
  apply Fin.ext
  obtain ⟨-, -, -, -, e0, e1, -⟩ := idx_facts t
  match a with
  | ⟨0, _⟩ => show win0_2.index t (0 : Fin 2) * 256 + 1 * j.val = 256 * (t.val % 43) + j.val; rw [e0]; omega
  | ⟨1, _⟩ => show win0_2.index t (1 : Fin 2) * 4096 + 1 * h.val = h.val; rw [e1]; omega

/-- The third matrix's group of columns. -/
theorem dblk_apply (c : Dev nD) (t : Fin cfg0.N) (q : Fin 4096) (j : Fin 256) :
    dblk m c t (ix2 q j) = (V m c main_v4 : S4096x11008.Idx → Elt F .bf16) (ix2 q (unitOf t.val j)) := by
  unfold dblk iblk
  rw [View.read_apply]
  show V m c main_v4 _ = V m c main_v4 _
  congr 1
  funext a
  apply Fin.ext
  obtain ⟨-, -, -, -, -, -, e0, e1, -⟩ := idx_facts t
  match a with
  | ⟨0, _⟩ => show win0_3.index t (0 : Fin 2) * 4096 + 1 * q.val = q.val; rw [e0]; omega
  | ⟨1, _⟩ => show win0_3.index t (1 : Fin 2) * 256 + 1 * j.val = 256 * (t.val % 43) + j.val; rw [e1]; omega

end Blocks

section Entry

variable (m : (ℓ : Loc nD τ sig) → Buf (Elt Ideal) ℓ)

/-- Row `r` of the 8192 is row (r / 2048, r % 2048) of the activations. -/
def bs (r : Fin 8192) (h : Fin 4096) : S4x2048x4096.Idx :=
  ix3 (⟨r.val / 2048, by have := r.isLt; omega⟩ : Fin 4) (⟨r.val % 2048, Nat.mod_lt _ (by decide)⟩ : Fin 2048) h

/-- The activations as the region finds them. -/
theorem V_x (c : Dev nD) (r : Fin 8192) (h : Fin 4096) :
    (V m c main_v1 : S8192x4096.Idx → EReal) (ix2 r h) = m ((c : Thread nD τ).loc main_arg0) (bs r h) := by
  have e : (V m c main_v1 : S8192x4096.Idx → EReal)
      = truncf (F := Ideal) .bf16 (shapeCast S8192x4096 (m ((c : Thread nD τ).loc main_arg0)) shapeCasts_S4x2048x4096_S8192x4096) bitsLt_bf16_f32 := by
    show StableHlo.after hostOps0 (fun b => m (c, b)) (Proc.devRef .tc main_v1) = _
    after_results
    rfl
  rw [e, truncf_apply]
  refine shapeCast_apply _ _ _ _ ?_
  show (S4x2048x4096.rowMajor (bs r h)).val = (S8192x4096.rowMajor (ix2 r h)).val
  rw [Shape.rowMajor_val_three, Shape.rowMajor_val_two]
  show (r.val / 2048 * 2048 + r.val % 2048) * 4096 + h.val = r.val * 4096 + h.val
  omega

/-- The gate projection as the region finds it. -/
theorem V_g (c : Dev nD) : (V m c main_v2 : S11008x4096.Idx → EReal) = m ((c : Thread nD τ).loc main_arg1) := by
  show StableHlo.after hostOps0 (fun b => m (c, b)) (Proc.devRef .tc main_v2) = _
  after_results
  rfl

/-- The other projection as the region finds it. -/
theorem V_u (c : Dev nD) : (V m c main_v3 : S11008x4096.Idx → EReal) = m ((c : Thread nD τ).loc main_arg2) := by
  show StableHlo.after hostOps0 (fun b => m (c, b)) (Proc.devRef .tc main_v3) = _
  after_results
  rfl

/-- The third matrix as the region finds it. -/
theorem V_d (c : Dev nD) : (V m c main_v4 : S4096x11008.Idx → EReal) = m ((c : Thread nD τ).loc main_arg3) := by
  show StableHlo.after hostOps0 (fun b => m (c, b)) (Proc.devRef .tc main_v4) = _
  after_results
  rfl

end Entry

end Cert.KernelIdeal.Visit

end
-- ==== Proof.Term.lean ====
/-
  The body's arithmetic term read at one entry, on the extended reals.

  With `x0` a 256 × 4096 block of activation rows, `x1`, `x2` groups of 256 rows of the two projections, `x3`
  the matching 256 columns of the third matrix and `xs` the running block, entry (p, q) of the body's term is
      xs (p, q) + ∑ j < 256, ((g j · σ(g j)) · u j) · x3 (q, j),
  where `g j = ∑ h, x0 (p, h) · x1 (j, h)` and `u j = ∑ h, x0 (p, h) · x2 (j, h)`: each matrix product into a zero
  accumulator is the plain sum over its one contracted axis, a change of float format is the identity, and the
  logistic function and the two products act entry by entry. The zero block's entries are the number zero.
-/
import proofs.«124684_j39092792328541_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Term

open Idealize.ShloMosaic Idealize.ShloMosaic.ValueIdx
open Cert.KernelIdeal Cert.KernelIdeal.Gen

/-! ## The projections' product: rows of the activation block against rows of a projection group -/

theorem lhs_proj_0 (i : S256x256.Idx) (q : dot_S256x4096_S256x4096_S256x256_1_1_0_0_n_n.contr.Idx) : (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_proj_1 (i : S256x256.Idx) (q : dot_S256x4096_S256x4096_S256x256_1_1_0_0_n_n.contr.Idx) : (dot_S256x4096_S256x4096_S256x256_1_1_0_0_n_n.lhsIdx i q 1).val = (q ⟨0, by decide⟩).val :=
  dot_S256x4096_S256x4096_S256x256_1_1_0_0_n_n.lhsIdx_val_of_single rfl i q
theorem rhs_proj_0 (i : S256x256.Idx) (q : dot_S256x4096_S256x4096_S256x256_1_1_0_0_n_n.contr.Idx) : (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_proj_1 (i : S256x256.Idx) (q : dot_S256x4096_S256x4096_S256x256_1_1_0_0_n_n.contr.Idx) : (dot_S256x4096_S256x4096_S256x256_1_1_0_0_n_n.rhsIdx i q 1).val = (q ⟨0, by decide⟩).val :=
  dot_S256x4096_S256x4096_S256x256_1_1_0_0_n_n.rhsIdx_val_of_single rfl i q

/-- Entry (a, b) of the product into a zero accumulator: row `a` of the left block against row `b` of the right. -/
theorem matmul_proj (l r : FVec Ideal S256x4096 .bf16) (a b : Fin 256) :
    matmul dot_S256x4096_S256x4096_S256x256_1_1_0_0_n_n none l r (constant S256x256 .f32 0x00000000#32) (ix2 a b) = ∑ h : Fin 4096, l (ix2 a h) * r (ix2 b h) := by
  simp only [matmul]
  rw [Ideal.matmul_constant_zero_apply, ← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 a b) ((contrEquiv1 dot_S256x4096_S256x4096_S256x256_1_1_0_0_n_n 4096 rfl rfl).symm k) = ix2 a k := funext fun x => Fin.ext (by
    match x with
    | ⟨0, _⟩ => exact lhs_proj_0 _ _
    | ⟨1, _⟩ => exact (lhs_proj_1 _ _).trans hk)
  have er : dot_S256x4096_S256x4096_S256x256_1_1_0_0_n_n.rhsIdx (ix2 a b) ((contrEquiv1 dot_S256x4096_S256x4096_S256x256_1_1_0_0_n_n 4096 rfl rfl).symm k) = ix2 b k := funext fun x => Fin.ext (by
    match x with
    | ⟨0, _⟩ => exact rhs_proj_0 _ _
    | ⟨1, _⟩ => exact (rhs_proj_1 _ _).trans hk)
  rw [el, er]

/-! ## The last product: rows of the hidden block against rows of the third matrix's block -/

theorem lhs_down_0 (i : S256x4096.Idx) (q : dot_S256x256_S4096x256_S256x4096_1_1_0_0_n_n.contr.Idx) : (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl
theorem lhs_down_1 (i : S256x4096.Idx) (q : dot_S256x256_S4096x256_S256x4096_1_1_0_0_n_n.contr.Idx) : (dot_S256x256_S4096x256_S256x4096_1_1_0_0_n_n.lhsIdx i q 1).val = (q ⟨0, by decide⟩).val :=
  dot_S256x256_S4096x256_S256x4096_1_1_0_0_n_n.lhsIdx_val_of_single rfl i q
theorem rhs_down_0 (i : S256x4096.Idx) (q : dot_S256x256_S4096x256_S256x4096_1_1_0_0_n_n.contr.Idx) : (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl
theorem rhs_down_1 (i : S256x4096.Idx) (q : dot_S256x256_S4096x256_S256x4096_1_1_0_0_n_n.contr.Idx) : (dot_S256x256_S4096x256_S256x4096_1_1_0_0_n_n.rhsIdx i q 1).val = (q ⟨0, by decide⟩).val :=
  dot_S256x256_S4096x256_S256x4096_1_1_0_0_n_n.rhsIdx_val_of_single rfl i q

/-- Entry (p, q) of the product into a zero accumulator: row `p` of the left block against row `q` of the right. -/
theorem matmul_down (l : FVec Ideal S256x256 .bf16) (r : FVec Ideal S4096x256 .bf16) (p : Fin 256) (q : Fin 4096) :
    matmul dot_S256x256_S4096x256_S256x4096_1_1_0_0_n_n none l r (constant S256x4096 .f32 0x00000000#32) (ix2 p q) = ∑ j : Fin 256, l (ix2 p j) * r (ix2 q j) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 p q) ((contrEquiv1 dot_S256x256_S4096x256_S256x4096_1_1_0_0_n_n 256 rfl rfl).symm k) = ix2 p k := funext fun x => Fin.ext (by
    match x with
    | ⟨0, _⟩ => exact lhs_down_0 _ _
    | ⟨1, _⟩ => exact (lhs_down_1 _ _).trans hk)
  have er : dot_S256x256_S4096x256_S256x4096_1_1_0_0_n_n.rhsIdx (ix2 p q) ((contrEquiv1 dot_S256x256_S4096x256_S256x4096_1_1_0_0_n_n 256 rfl rfl).symm k) = ix2 q k := funext fun x => Fin.ext (by
    match x with
    | ⟨0, _⟩ => exact rhs_down_0 _ _
    | ⟨1, _⟩ => exact (rhs_down_1 _ _).trans hk)
  rw [el, er]

/-! ## The body's term -/

/-- The logistic function acts entry by entry. -/
theorem logistic_apply {s : Shape} (v : FVec Ideal s .f32) (i : s.Idx) : logistic v i = Ideal.logistic (v i) := rfl

/-- Row `p` of the activation block against row `j` of a projection group. -/
def dotRow (x0 w : FVec Ideal S256x4096 .bf16) (p j : Fin 256) : EReal := ∑ h : Fin 4096, x0 (ix2 p h) * w (ix2 j h)

/-- The body's term at entry (p, q). -/
theorem pay_apply (x0 x1 x2 : Vec Ideal S256x4096 .bf16) (x3 : Vec Ideal S4096x256 .bf16) (xs : Vec Ideal S256x4096 .f32)
    (p : Fin 256) (q : Fin 4096) :
    k0_pay2 (F := Ideal) x0 x1 x2 x3 xs (ix2 p q)
      = xs (ix2 p q) + ∑ j : Fin 256, ((dotRow x0 x1 p j * Ideal.logistic (dotRow x0 x1 p j)) * dotRow x0 x2 p j) * x3 (ix2 q j) := by
  unfold k0_pay2
  simp only [shapeCast_self]
  rw [addf_apply, matmul_down]
  refine congrArg (xs (ix2 p q) + ·) (Finset.sum_congr rfl fun j _ => ?_)
  rw [truncf_apply, mulf_apply, mulf_apply, logistic_apply, matmul_proj, matmul_proj]
  rfl

/-- The zero block's entries are zero. -/
theorem zero_apply (y : S256x4096.Idx) : k0_pay1 (F := Ideal) y = 0 := by
  unfold k0_pay1
  simp only [shapeCast_self]
  exact Ideal.ofBits_zero_f32

end Cert.KernelIdeal.Term

end
-- ==== Proof.Spec.lean ====
/-
  The gated feed-forward block on the extended reals, one activation row at a time.

  For a row `xr` of 4096 activations, two projection matrices `wg`, `wu` (11008 × 4096) and a third, `wd`
  (4096 × 11008):
      proj xr w i   = ∑ h, xr h · w i h                       (row against row `i` of a projection)
      hidden i      = (proj xr wg i · σ(proj xr wg i)) · proj xr wu i     (σ the logistic function)
      out q         = ∑ i, hidden i · wd q i.
  `mlp` is that function of the four argument arrays, entry by entry: entry (b, s, q) of the result is `out q` of row
  (b, s) of the activations.

  The sum over the 11008 hidden units may be taken 256 at a time: the 43 partial sums, added one after the other
  onto a zero, are the whole sum (`chain_eq_out`). Addition of extended reals is commutative and associative, and
  nothing else is used, so no finiteness is needed.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- The activations' shape, the projections' and the third matrix's. -/
abbrev Sx : Shape := ⟨3, ![4, 2048, 4096]⟩
abbrev Sw : Shape := ⟨2, ![11008, 4096]⟩
abbrev Sd : Shape := ⟨2, ![4096, 11008]⟩

/-- Row `xr` against row `i` of a projection matrix. -/
def proj (xr : Fin 4096 → EReal) (w : Sw.Idx → EReal) (i : Fin 11008) : EReal :=
  ∑ h : Fin 4096, xr h * w (ix2 i h)

/-- Hidden unit `i`: the gate's projection times its logistic, times the other projection. -/
def hidden (xr : Fin 4096 → EReal) (wg wu : Sw.Idx → EReal) (i : Fin 11008) : EReal :=
  (proj xr wg i * Ideal.logistic (proj xr wg i)) * proj xr wu i

/-- Output column `q` of the row: the hidden units against row `q` of the third matrix. -/
def out (xr : Fin 4096 → EReal) (wg wu : Sw.Idx → EReal) (wd : Sd.Idx → EReal) (q : Fin 4096) : EReal :=
  ∑ i : Fin 11008, hidden xr wg wu i * wd (ix2 q i)

/-- The block's result array as one function of its four argument arrays. -/
def mlp (x : Sx.Idx → EReal) (wg wu : Sw.Idx → EReal) (wd : Sd.Idx → EReal) : Sx.Idx → EReal :=
  fun idx => out (fun h => x (ix3 (idx 0) (idx 1) h)) wg wu wd (idx 2)

/-- Hidden unit number `256 k + j`. -/
def unit (k : Fin 43) (j : Fin 256) : Fin 11008 := ⟨256 * k.val + j.val, by have := k.isLt; have := j.isLt; omega⟩

/-- A sum over the 11008 hidden units is the sum over the 43 groups of 256 of the groups' sums. -/
theorem sum_units (f : Fin 11008 → EReal) : ∑ i : Fin 11008, f i = ∑ k : Fin 43, ∑ j : Fin 256, f (unit k j) := by
  rw [← Fintype.sum_prod_type']
  refine (Fintype.sum_equiv (finProdFinEquiv (m := 43) (n := 256)) _ _ fun kj => ?_).symm
  obtain ⟨k, j⟩ := kj
  refine congrArg f (Fin.ext ?_)
  show 256 * k.val + j.val = j.val + 256 * k.val
  omega

/-- Group `k`'s share of output column `q` (zero past the last group). -/
def share (xr : Fin 4096 → EReal) (wg wu : Sw.Idx → EReal) (wd : Sd.Idx → EReal) (q : Fin 4096) (k : ℕ) : EReal :=
  if hk : k < 43 then ∑ j : Fin 256, hidden xr wg wu (unit ⟨k, hk⟩ j) * wd (ix2 q (unit ⟨k, hk⟩ j)) else 0

/-- The shares added one after the other onto a zero. -/
def chain (b : ℕ → EReal) : ℕ → EReal
  | 0 => 0 + b 0
  | n + 1 => chain b n + b (n + 1)

theorem chain_eq_sum (b : ℕ → EReal) (n : ℕ) : chain b n = ∑ k ∈ Finset.range (n + 1), b k := by
  induction n with
  | zero => simp [chain]
  | succ n ih => rw [chain, ih, Finset.sum_range_succ (n := n + 1)]

/-- After the last group the running sum is the whole output column. -/
theorem chain_eq_out (xr : Fin 4096 → EReal) (wg wu : Sw.Idx → EReal) (wd : Sd.Idx → EReal) (q : Fin 4096) :
    chain (share xr wg wu wd q) 42 = out xr wg wu wd q := by
  rw [chain_eq_sum, out, sum_units, Finset.sum_range]
  refine Finset.sum_congr rfl fun k _ => ?_
  rw [share, dif_pos k.isLt]

end Cert.Mlp

end
-- ==== Proof.Rows.lean ====
/-
  The running block, entry by entry, is the running sum of the specification.

  Entry (p, q) of what visit `t` adds to the running block is group `t % 43`'s share of output column `q` for
  activation row `256 (t / 43) + p` (`step`): the visit's blocks are those rows and that group of the arguments,
  and the body's term is the sum over the group's 256 hidden units. So after visit `n` entry (p, q) of the running
  block is the shares of groups 0 … n % 43 added one after the other onto a zero (`acc_apply`, by induction on
  the visit: a first visit starts from the zero block; any other visit continues the same row block, one group
  further).
-/
import proofs.«124684_j39092792328541_1_alg».proof.Proof.Blocks
import proofs.«124684_j39092792328541_1_alg».proof.Proof.Term
import proofs.«124684_j39092792328541_1_alg».proof.Proof.Spec

noncomputable section

namespace Cert.KernelIdeal.Visit

open Idealize.ShloMosaic Idealize.ShloMosaic.TcCoe Idealize.SL.Sem Idealize.ShloMosaic.ValueIdx
open Cert.KernelIdeal Cert.KernelIdeal.Gen Cert.KernelIdeal.Term Cert.Mlp

variable (m : (ℓ : Loc nD τ sig) → Buf (Elt Ideal) ℓ)

/-- The four arguments on a core. -/
abbrev argX (c : Dev nD) : S4x2048x4096.Idx → EReal := m ((c : Thread nD τ).loc main_arg0)
abbrev argG (c : Dev nD) : S11008x4096.Idx → EReal := m ((c : Thread nD τ).loc main_arg1)
abbrev argU (c : Dev nD) : S11008x4096.Idx → EReal := m ((c : Thread nD τ).loc main_arg2)
abbrev argD (c : Dev nD) : S4096x11008.Idx → EReal := m ((c : Thread nD τ).loc main_arg3)

/-- Activation row `r` of the 8192. -/
def xrow (c : Dev nD) (r : Fin 8192) : Fin 4096 → EReal := fun h => argX m c (bs r h)

/-- A row of the visit's activation block against a row of one of its projection groups is the specification's
    projection of that activation row at that hidden unit. -/
theorem dotRow_g (c : Dev nD) (t : Fin cfg0.N) (p j : Fin 256) :
    dotRow (xblk m c t) (gblk m c t) p j = proj (xrow m c (rowOf t.val t.isLt p)) (argG m c) (unitOf t.val j) := by
  unfold dotRow proj
  refine Finset.sum_congr rfl fun h _ => ?_
  rw [xblk_apply, gblk_apply, V_x, V_g]
  rfl

theorem dotRow_u (c : Dev nD) (t : Fin cfg0.N) (p j : Fin 256) :
    dotRow (xblk m c t) (ublk m c t) p j = proj (xrow m c (rowOf t.val t.isLt p)) (argU m c) (unitOf t.val j) := by
  unfold dotRow proj
  refine Finset.sum_congr rfl fun h _ => ?_
  rw [xblk_apply, ublk_apply, V_x, V_u]
  rfl

/-- What a visit adds at entry (p, q): its group's share of column `q` for its row. -/
theorem step (c : Dev nD) (t : Fin cfg0.N) (xs : Vec Ideal S256x4096 .f32) (p : Fin 256) (q : Fin 4096) :
    k0_pay2 (F := Ideal) (xblk m c t) (gblk m c t) (ublk m c t) (dblk m c t) xs (ix2 p q)
      = xs (ix2 p q) + share (xrow m c (rowOf t.val t.isLt p)) (argG m c) (argU m c) (argD m c) q (t.val % 43) := by
  rw [pay_apply]
  refine congrArg (xs (ix2 p q) + ·) ?_
  rw [share, dif_pos (Nat.mod_lt _ (by decide))]
  refine Finset.sum_congr rfl fun j _ => ?_
  rw [dotRow_g, dotRow_u, dblk_apply, V_d]
  rfl

/-- After visit `n`, entry (p, q) of the running block: the shares of groups 0 … n % 43, in order, onto a zero. -/
theorem acc_apply (c : Dev nD) : ∀ (n : ℕ) (hn : n < cfg0.N) (p : Fin 256) (q : Fin 4096),
    acc m c n hn (ix2 p q)
      = chain (share (xrow m c (rowOf n hn p)) (argG m c) (argU m c) (argD m c) q) (n % 43)
  | 0, hn, p, q => by
    rw [acc_zero, step m c ⟨0, hn⟩, zero_apply]
    rfl
  | n + 1, hn, p, q => by
    have hN := lt_N hn
    rw [acc_succ, step m c ⟨n + 1, hn⟩]
    by_cases h0 : (n + 1) % 43 = 0
    · rw [if_pos h0, zero_apply]
      show _ = chain _ ((n + 1) % 43)
      rw [h0]
      rfl
    · rw [if_neg h0, acc_apply c n (Nat.lt_of_succ_lt hn) p q]
      have er : rowOf n (Nat.lt_of_succ_lt hn) p = rowOf (n + 1) hn p := Fin.ext (by
        show 256 * (n / 43) + p.val = 256 * ((n + 1) / 43) + p.val
        omega)
      have ek : (n + 1) % 43 = n % 43 + 1 := by omega
      rw [er]
      show _ = chain _ ((n + 1) % 43)
      rw [ek]
      rfl

end Cert.KernelIdeal.Visit

end
-- ==== Proof.Result.lean ====
/-
  The kernel's result array.

  Only the last visit of a row block (`t % 43 = 42`) writes its output block back, and what it writes is the
  running block after all 43 groups: entry (p, q) is the whole output column `q` for activation row
  `256 (t / 43) + p`. The 32 written blocks are the 32 row blocks of the 8192 × 4096 result, so they cover it, and
  the result is `mlp` of the arguments with rows numbered `2048 b + s`. The last host operation renumbers the rows
  back to (b, s): the program's result is `mlp` of its four arguments.
-/
import proofs.«124684_j39092792328541_1_alg».proof.Proof.Rows

noncomputable section

namespace Cert.KernelIdeal.Visit

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Term Cert.Mlp

variable (m : (ℓ : Loc nD τ sig) → Buf (Elt Ideal) ℓ) (ρ : Dev nD → PrngReg)

/-- The specification's result. -/
abbrev spec (c : Dev nD) : S4x2048x4096.Idx → EReal := mlp (argX m c) (argG m c) (argU m c) (argD m c)

/-- The same with rows numbered `2048 b + s`: what the region's output array ends holding. -/
def flat (c : Dev nD) : S8192x4096.Idx → EReal := fun i => spec m c (bs (i 0) (i 1))

theorem flat_apply (c : Dev nD) (r : Fin 8192) (q : Fin 4096) :
    flat m c (ix2 r q) = out (xrow m c r) (argG m c) (argU m c) (argD m c) q := rfl

/-- After the last visit of a row block the running block is the block of `flat`. -/
theorem acc_last (c : Dev nD) (t : Fin cfg0.N) (h42 : t.val % 43 = 42) (p : Fin 256) (q : Fin 4096) :
    acc m c t.val t.isLt (ix2 p q) = flat m c (ix2 (rowOf t.val t.isLt p) q) := by
  rw [acc_apply, h42, chain_eq_out, flat_apply]

/-- What a writing visit writes back is its block of `flat`. -/
theorem flushed_eq (c : Dev nD) (t : Fin cfg0.N) (hf : (cfg0.win 4).flush t = true) :
    (dats m 0 c).flushed 4 t = ((cfg0.win 4).blk t).view.read (Elt Ideal) (flat m c) := by
  have h42 : t.val % 43 = 42 := (flush0_4 t).mp hf
  show (cfg0.win 4).cut (grid0.coords t) ((dats m 0 c).after 4 t) = _
  rw [after0_4, output_eq m c t h42]
  funext y
  obtain ⟨p, q, rfl⟩ : ∃ (p : Fin 256) (q : Fin 4096), y = ix2 p q := ⟨y 0, y 1, eq_ix2 y⟩
  rw [View.read_apply]
  show acc m c t.val t.isLt (ix2 p q) = flat m c _
  rw [acc_last m c t h42]
  congr 1
  funext a
  apply Fin.ext
  obtain ⟨-, -, -, -, -, -, -, -, e0, e1⟩ := idx_facts t
  match a with
  | ⟨0, _⟩ => show 256 * (t.val / 43) + p.val = win0_4.index t (0 : Fin 2) * 256 + 1 * p.val; rw [e0]; omega
  | ⟨1, _⟩ => show q.val = win0_4.index t (1 : Fin 2) * 4096 + 1 * q.val; rw [e1]; omega

/-- Row `r` lies in the block the visit `43 (r / 256) + 42` writes. -/
theorem cover (c : Dev nD) (i : S8192x4096.Idx) :
    ∃ t : Fin cfg0.N, (cfg0.win 4).flush t = true ∧ i ∈ ((cfg0.win 4).blk t).view.set := by
  have hr : (i 0).val < 8192 := (i 0).isLt
  have hq : (i 1).val < 4096 := (i 1).isLt
  let t : Fin cfg0.N := ⟨43 * ((i 0).val / 256) + 42, by rw [show cfg0.N = 1376 from N_0]; omega⟩
  have ht : t.val = 43 * ((i 0).val / 256) + 42 := rfl
  refine ⟨t, (flush0_4 t).mpr (by rw [ht]; omega), ?_⟩
  show i ∈ ((View.whole main_v5).slice (win0_4.rect t)).set
  rw [View.set_slice_whole, Rect.mem_set_unit]
  obtain ⟨-, -, -, -, -, -, -, -, e0, e1⟩ := idx_facts t
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4096 ≤ (i 1).val ∧ (i 1).val < win0_4.index t (1 : Fin 2) * 4096 + 4096
    rw [e1]; omega

/-- The region's output array after the run. -/
theorem final (c : Dev nD) : (dats m 0 c).arrAt 4 cfg0.N = flat m c :=
  (dats m 0 c).arrAt_eq_of_cover 4 (flat m c) (flushed_eq m c) (cover c)

/-- Renumbering the rows back to (b, s) gives the specification's result. -/
theorem unflat (c : Dev nD) : shapeCast S4x2048x4096 (flat m c) shapeCasts_S8192x4096_S4x2048x4096 = spec m c := by
  funext i
  have h0 : (i 0).val < 4 := (i 0).isLt
  have h1 : (i 1).val < 2048 := (i 1).isLt
  rw [shapeCast_apply (flat m c) shapeCasts_S8192x4096_S4x2048x4096 i
    (ix2 (⟨(i 0).val * 2048 + (i 1).val, by omega⟩ : Fin 8192) (i 2))
    (by rw [Shape.rowMajor_val_three, Shape.rowMajor_val_two]; rfl)]
  show spec m c (bs _ _) = spec m c i
  congr 1
  funext a
  apply Fin.ext
  match a with
  | ⟨0, _⟩ => show ((i 0).val * 2048 + (i 1).val) / 2048 = (i 0).val; omega
  | ⟨1, _⟩ => show ((i 0).val * 2048 + (i 1).val) % 2048 = (i 1).val; omega
  | ⟨2, _⟩ => rfl

/-- The program's result buffer after the last host operation. -/
theorem tail (c : Dev nD) :
    Pipeline.afterTail₀ cfgs (dats m) 0 (V0 m) [hostOps1] c main_v6 = spec m c := by
  unfold Pipeline.afterTail₀
  show StableHlo.after hostOps1 _ (Proc.devRef .tc main_v6) = _
  after_results
  rw [(Pipeline.withArrays_arr spec0 launch0.win.arr_inj c _ _ 4).trans (final m c)]
  exact unflat m c

/-- The run, read: the result at the specification's function of the arguments, the arguments unchanged. -/
theorem run : θ_run defs (onTc (τ := τ) (main (F := Ideal))) ⟨m, fun _ => 0, ρ⟩ fun r => ∀ c : Dev nD,
      r.2.mem ((c.tc : Thread nD τ).loc main_v6) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Visit

end
-- ==== Proof.RefValue.lean ====
/-
  The reference computes the gated feed-forward block of the specification.

  Its result at entry (b, s, q) is the sum over the hidden units `i` of
  `(gate · (1 / (1 + e^(−gate))) · up) · wd q i`, where `gate` and `up` are row (b, s) of the activations against
  row `i` of the two projections: read stage by stage, this is `Cert.Mlp.mlp` — the quotient `1 / (1 + e^(−g))`
  is the logistic function on every extended real, by its definition.
-/
import proofs.«124684_j39092792328541_1_alg».proof.Proof.Gen.ReferenceIdeal.Read
import proofs.«124684_j39092792328541_1_alg».proof.Proof.Spec

noncomputable section

namespace Cert.Mlp.Ref

open Idealize.ShloMosaic Idealize.ShloMosaic.ValueIdx
open Cert.ReferenceIdeal Cert.ReferenceIdeal.Read

/-- The word `0x3F800000` is the number one. -/
theorem one_f32 : (FloatOps.ofBits .f32 0x3F800000#32 : Ideal .f32) = 1 := IdealRules.sign_bit.ideal_onePat .f32

/-- The operand entries the two projections' sums run over. -/
theorem lidx_proj (i : S4x2048x11008.Idx) (k : Fin 4096) : lidx_main_v0 i k = ix3 (i 0) (i 1) k :=
  funext fun a => by match a with | ⟨0, _⟩ => rfl | ⟨1, _⟩ => rfl | ⟨2, _⟩ => rfl
theorem ridx_proj (i : S4x2048x11008.Idx) (k : Fin 4096) : ridx_main_v0 i k = ix2 (i 2) k :=
  funext fun a => by match a with | ⟨0, _⟩ => rfl | ⟨1, _⟩ => rfl
theorem ridx_out (i : S4x2048x4096.Idx) (k : Fin 11008) : ridx_main_v4 i k = ix2 (i 2) k :=
  funext fun a => by match a with | ⟨0, _⟩ => rfl | ⟨1, _⟩ => rfl

/-- A projection stage at an entry is the specification's `proj` of the row. -/
theorem gate_apply (x : S4x2048x4096.Idx → EReal) (w : S11008x4096.Idx → EReal) (i : S4x2048x11008.Idx) :
    val_main_v0 (F := Ideal) x w i = proj (fun h => x (ix3 (i 0) (i 1) h)) w (i 2) := by
  rw [val_main_v0_apply]
  unfold proj
  refine Finset.sum_congr rfl fun k _ => ?_
  rw [lidx_proj, ridx_proj]
  rfl

theorem up_apply (x : S4x2048x4096.Idx → EReal) (w : S11008x4096.Idx → EReal) (i : S4x2048x11008.Idx) :
    val_main_v1 (F := Ideal) x w i = proj (fun h => x (ix3 (i 0) (i 1) h)) w (i 2) :=
  gate_apply x w i

/-- The product stage at an entry is the specification's hidden unit. -/
theorem hidden_apply (x : S4x2048x4096.Idx → EReal) (wg wu : S11008x4096.Idx → EReal) (i : S4x2048x11008.Idx) :
    val_main_v3 (F := Ideal) x wg wu i = hidden (fun h => x (ix3 (i 0) (i 1) h)) wg wu (i 2) := by
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, up_apply, gate_apply, one_f32]
  rfl

/-- The reference's result is the specification's function of the four arguments. -/
theorem result_eq (x : S4x2048x4096.Idx → EReal) (wg wu : S11008x4096.Idx → EReal) (wd : S4096x11008.Idx → EReal) :
    val_main_v4 (F := Ideal) x wg wu wd = mlp x wg wu wd := by
  funext i
  rw [val_main_v4_apply]
  unfold mlp out
  refine Finset.sum_congr rfl fun k _ => ?_
  rw [hidden_apply, ridx_out]
  rfl

end Cert.Mlp.Ref

end
-- ==== Proof.lean ====
/-
  A gated feed-forward block, computed 256 hidden units at a time, against its definition.

  Both programs take activations `x` (4 × 2048 × 4096), two projections `w_gate`, `w_up` (11008 × 4096) and a third
  matrix `w_down` (4096 × 11008), and return, for every activation row (b, s) and output column q,
      ∑ i < 11008, (g i · σ(g i) · u i) · w_down q i,    g i = ∑ h, x b s h · w_gate i h,   u i = ∑ h, x b s h · w_up i h,
  with σ the logistic function (`Cert.Mlp.mlp`, Proof/Spec.lean).

  The reference does exactly this, σ spelt `1 / (1 + e^(−g))` (Proof/RefValue.lean). The kernel numbers the rows
  `2048 b + s`, walks them 256 at a time, and for each row block visits the 43 groups of 256 hidden units in turn,
  adding each group's share of the sum into a running block it keeps between visits (zeroed at the first group,
  copied out after the last); on the extended reals the changes of float format are the identity, each matrix
  product is the plain sum over its contracted axis, and the kernel's logistic is the reference's quotient. What the
  running block holds after each visit is found by induction over the visits (Proof/Visit.lean, Proof/Acc.lean,
  Proof/Rows.lean), and the 43 shares added in order are the whole sum because addition of extended reals is
  commutative and associative (Proof/Spec.lean): no finiteness is used, so the precondition is never opened.
  The ideal pass rewrote nothing, so the statement relating the kernel to its idealization is trivial.
-/
import proofs.«124684_j39092792328541_1_alg».proof.Defs
import proofs.«124684_j39092792328541_1_alg».proof.Proof.Gen.Kernel
import proofs.«124684_j39092792328541_1_alg».proof.Proof.Gen.Kernel.Skeleton
import proofs.«124684_j39092792328541_1_alg».proof.Proof.Gen.Kernel.Launch
import proofs.«124684_j39092792328541_1_alg».proof.Proof.Gen.Kernel.Points
import proofs.«124684_j39092792328541_1_alg».proof.Proof.Gen.Kernel.Frame
import proofs.«124684_j39092792328541_1_alg».proof.Proof.Gen.KernelIdeal
import proofs.«124684_j39092792328541_1_alg».proof.Proof.Gen.KernelIdeal.Skeleton
import proofs.«124684_j39092792328541_1_alg».proof.Proof.Gen.KernelIdeal.Launch
import proofs.«124684_j39092792328541_1_alg».proof.Proof.Gen.KernelIdeal.Points
import proofs.«124684_j39092792328541_1_alg».proof.Proof.Gen.KernelIdeal.Frame
import proofs.«124684_j39092792328541_1_alg».proof.Proof.Gen.ReferenceIdeal
import proofs.«124684_j39092792328541_1_alg».proof.Proof.Gen.Pre_finite_inputs
import proofs.«124684_j39092792328541_1_alg».proof.Proof.Gen.ReferenceIdeal.Run
import proofs.«124684_j39092792328541_1_alg».proof.Proof.Gen.ReferenceIdeal.Read
import proofs.«124684_j39092792328541_1_alg».proof.Proof.Result
import proofs.«124684_j39092792328541_1_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments both programs end with `mlp` of them as their result. -/
theorem algebraic : Cert.algebraic_KernelIdeal_ReferenceIdeal := by
  intro m ρ m' ρ' _ hagree
  refine ⟨fun c => Cert.KernelIdeal.Visit.spec m c, Cert.KernelIdeal.Visit.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Mlp.Ref.result_eq, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
